-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64 .f32) (main_arg8 : FVec F S64 .f32) (main_arg9 : FVec F S64 .f32) (main_arg10 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x64 .f32) (main_arg1 : FVec F S27x64x64 .f32) (main_arg2 : FVec F S27x64x64 .f32) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : IVec S27x100000 32) (main_arg12 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S27x64x64 .f32 := Host.absf main_arg2
  let main_cst_2 : FVec F S_ .f32 := constant S_ .f32 0x7F800000#32
  let main_v10 : FVec F S27x64x64 .f32 := broadcastInDim S27x64x64 ![] bcast_S_S27x64x64 main_cst_2
  let main_v11 : IVec S27x64x64 1 := cmpf .olt main_v9 main_v10
  let main_c_3 : IVec S_ 1 := constantI S_ 1 1#1
  let main_v12 : IVec S_ 1 := (fun x v => Host.reduce IntOp.andi x v reducesTo_S27x64x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_v13 main_v16
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩

abbrev nBuf : Space → Nat
  | .hbm => 69
  | .vmem => 30
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S27x64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S27x100000, .i32⟩
  | .hbm, ⟨12, _⟩ => ⟨S27x100000, .i32⟩
  | .hbm, ⟨13, _⟩ => ⟨S_, .i32⟩
  | .hbm, ⟨14, _⟩ => ⟨S27x100000, .i32⟩
  | .hbm, ⟨15, _⟩ => ⟨S27x100000, .i1⟩
  | .hbm, ⟨16, _⟩ => ⟨S_, .i32⟩
  | .hbm, ⟨17, _⟩ => ⟨S27x100000, .i32⟩
  | .hbm, ⟨18, _⟩ => ⟨S27x100000, .i32⟩
  | .hbm, ⟨19, _⟩ => ⟨S27x100000, .i32⟩
  | .hbm, ⟨20, _⟩ => ⟨S27x100000x1, .i32⟩
  | .hbm, ⟨21, _⟩ => ⟨S27x100000x64, .f32⟩
  | .hbm, ⟨22, _⟩ => ⟨S27x100000x64, .f32⟩
  | .hbm, ⟨23, _⟩ => ⟨S_, .f32⟩
  | .hbm, ⟨24, _⟩ => ⟨S200000x64, .f32⟩
  | .hbm, ⟨25, _⟩ => ⟨S2700000, .i32⟩
  | .hbm, ⟨26, _⟩ => ⟨S2700000x64, .f32⟩
  | .hbm, ⟨27, _⟩ => ⟨S_, .i32⟩
  | .hbm, ⟨28, _⟩ => ⟨S2700000, .i32⟩
  | .hbm, ⟨29, _⟩ => ⟨S2700000, .i1⟩
  | .hbm, ⟨30, _⟩ => ⟨S_, .i32⟩
  | .hbm, ⟨31, _⟩ => ⟨S2700000, .i32⟩
  | .hbm, ⟨32, _⟩ => ⟨S2700000, .i32⟩
  | .hbm, ⟨33, _⟩ => ⟨S2700000, .i32⟩
  | .hbm, ⟨34, _⟩ => ⟨S2700000x1, .i32⟩
  | .hbm, ⟨35, _⟩ => ⟨S200000x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S200000x64, .f32⟩
  | .hbm, ⟨41, _⟩ => ⟨S_, .i32⟩
  | .hbm, ⟨42, _⟩ => ⟨S27x100000, .i32⟩
  | .hbm, ⟨43, _⟩ => ⟨S27x100000, .i1⟩
  | .hbm, ⟨44, _⟩ => ⟨S_, .i32⟩
  | .hbm, ⟨45, _⟩ => ⟨S27x100000, .i32⟩
  | .hbm, ⟨46, _⟩ => ⟨S27x100000, .i32⟩
  | .hbm, ⟨47, _⟩ => ⟨S27x100000, .i32⟩
  | .hbm, ⟨48, _⟩ => ⟨S27x100000x1, .i32⟩
  | .hbm, ⟨49, _⟩ => ⟨S27x100000x64, .f32⟩
  | .hbm, ⟨50, _⟩ => ⟨S27x100000x64, .f32⟩
  | .hbm, ⟨51, _⟩ => ⟨S_, .f32⟩
  | .hbm, ⟨52, _⟩ => ⟨S200000x64, .f32⟩
  | .hbm, ⟨53, _⟩ => ⟨S2700000, .i32⟩
  | .hbm, ⟨54, _⟩ => ⟨S2700000x64, .f32⟩
  | .hbm, ⟨55, _⟩ => ⟨S_, .i32⟩
  | .hbm, ⟨56, _⟩ => ⟨S2700000, .i32⟩
  | .hbm, ⟨57, _⟩ => ⟨S2700000, .i1⟩
  | .hbm, ⟨58, _⟩ => ⟨S_, .i32⟩
  | .hbm, ⟨59, _⟩ => ⟨S2700000, .i32⟩
  | .hbm, ⟨60, _⟩ => ⟨S2700000, .i32⟩
  | .hbm, ⟨61, _⟩ => ⟨S2700000, .i32⟩
  | .hbm, ⟨62, _⟩ => ⟨S2700000x1, .i32⟩
  | .hbm, ⟨63, _⟩ => ⟨S200000x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S200000x64, .f32⟩
  | .local _ .vmem, ⟨0, _⟩ => ⟨S1x10000x64, .f32⟩
  | .local _ .vmem, ⟨1, _⟩ => ⟨S1x10000x64, .f32⟩
  | .local _ .vmem, ⟨2, _⟩ => ⟨S1x64x64, .f32⟩
  | .local _ .vmem, ⟨3, _⟩ => ⟨S1x64x64, .f32⟩
  | .local _ .vmem, ⟨4, _⟩ => ⟨S1x10000x64, .f32⟩
  | .local _ .vmem, ⟨5, _⟩ => ⟨S1x10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x10000x64, .f32⟩
  | .local _ .vmem, ⟨15, _⟩ => ⟨S1x10000x64, .f32⟩
  | .local _ .vmem, ⟨16, _⟩ => ⟨S1x64x64, .f32⟩
  | .local _ .vmem, ⟨17, _⟩ => ⟨S1x64x64, .f32⟩
  | .local _ .vmem, ⟨18, _⟩ => ⟨S1x10000x64, .f32⟩
  | .local _ .vmem, ⟨19, _⟩ => ⟨S1x10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨2, ![27, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![27, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S200000x64_S27x100000x1_S27x100000x64_2_0_n_n_0_2_164_wf : GatherDims.WF S200000x64 S27x100000x1 S27x100000x64 [2] [0] [] [0] [] 2 ![1, 64]
  dot_S10000x64_S64x64_S10000x64_1_0_0_1_n_n_wf : DotDims.WF S10000x64 S64x64 S10000x64 [1] [0] [0] [1] [] []
  scatter_S200000x64_S2700000x1_S2700000x64_1_0_0_1_wf : ScatterDims.WF S200000x64 S2700000x1 S2700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S27x100000x64.size a
  hwx0_0 : ∀ i : grid0.Coords, EltTy.bits .f32 = 32 ∨ (Rect.block (s := S27x100000x64) S1x10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .f32 = 32 ∨ (Rect.block (s := S27x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S27x100000x64.size a
  hwx0_2 : ∀ i : grid0.Coords, EltTy.bits .f32 = 32 ∨ (Rect.block (s := S27x100000x64) S1x10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S200000x64.size a
  hwx1_5 : ∀ i : grid1.Coords, EltTy.bits .f32 = 32 ∨ (Rect.block (s := S200000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x64.size a ≤ S27x100000x64.size a
  hwx2_0 : ∀ i : grid2.Coords, EltTy.bits .f32 = 32 ∨ (Rect.block (s := S27x100000x64) S1x10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S27x64x64.size a
  hwx2_1 : ∀ i : grid2.Coords, EltTy.bits .f32 = 32 ∨ (Rect.block (s := S27x64x64) S1x64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x10000x64.size a ≤ S27x100000x64.size a
  hwx2_2 : ∀ i : grid2.Coords, EltTy.bits .f32 = 32 ∨ (Rect.block (s := S27x100000x64) S1x10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S200000x64.size a
  hwx3_6 : ∀ i : grid3.Coords, EltTy.bits .f32 = 32 ∨ (Rect.block (s := S200000x64) S10000x64.size (cc3_transform_6 i) (hinb3_6 i)).WholeWords (EltTy.packing .f32)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

abbrev win0_0 : Pipeline.Window sig grid0 :=
  Pipeline.Window.ofSpec (Memref.whole main_v6) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S1x10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S27x64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S27x100000, .i32⟩
  | .hbm, ⟨12, _⟩ => ⟨S27x100000, .i32⟩
  | .hbm, ⟨13, _⟩ => ⟨S_, .i32⟩
  | .hbm, ⟨14, _⟩ => ⟨S27x100000, .i32⟩
  | .hbm, ⟨15, _⟩ => ⟨S27x100000, .i1⟩
  | .hbm, ⟨16, _⟩ => ⟨S_, .i32⟩
  | .hbm, ⟨17, _⟩ => ⟨S27x100000, .i32⟩
  | .hbm, ⟨18, _⟩ => ⟨S27x100000, .i32⟩
  | .hbm, ⟨19, _⟩ => ⟨S27x100000, .i32⟩
  | .hbm, ⟨20, _⟩ => ⟨S27x100000x1, .i32⟩
  | .hbm, ⟨21, _⟩ => ⟨S27x100000x64, .f32⟩
  | .hbm, ⟨22, _⟩ => ⟨S27x100000x64, .f32⟩
  | .hbm, ⟨23, _⟩ => ⟨S_, .f32⟩
  | .hbm, ⟨24, _⟩ => ⟨S200000x64, .f32⟩
  | .hbm, ⟨25, _⟩ => ⟨S2700000, .i32⟩
  | .hbm, ⟨26, _⟩ => ⟨S2700000x64, .f32⟩
  | .hbm, ⟨27, _⟩ => ⟨S_, .i32⟩
  | .hbm, ⟨28, _⟩ => ⟨S2700000, .i32⟩
  | .hbm, ⟨29, _⟩ => ⟨S2700000, .i1⟩
  | .hbm, ⟨30, _⟩ => ⟨S_, .i32⟩
  | .hbm, ⟨31, _⟩ => ⟨S2700000, .i32⟩
  | .hbm, ⟨32, _⟩ => ⟨S2700000, .i32⟩
  | .hbm, ⟨33, _⟩ => ⟨S2700000, .i32⟩
  | .hbm, ⟨34, _⟩ => ⟨S2700000x1, .i32⟩
  | .hbm, ⟨35, _⟩ => ⟨S200000x64, .f32⟩
  | .hbm, ⟨36, _⟩ => ⟨S1x64, .f32⟩
  | .hbm, ⟨37, _⟩ => ⟨S200000x64, .f32⟩
  | .hbm, ⟨38, _⟩ => ⟨S200000x64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S200000x64, .f32⟩
  | .hbm, ⟨45, _⟩ => ⟨S200000x64, .f32⟩
  | .hbm, ⟨46, _⟩ => ⟨S1x64, .f32⟩
  | .hbm, ⟨47, _⟩ => ⟨S200000x64, .f32⟩
  | .hbm, ⟨48, _⟩ => ⟨S200000x64, .f32⟩
  | .hbm, ⟨49, _⟩ => ⟨S1x64, .f32⟩
  | .hbm, ⟨50, _⟩ => ⟨S200000x64, .f32⟩
  | .hbm, ⟨51, _⟩ => ⟨S200000x64, .f32⟩
  | .hbm, ⟨52, _⟩ => ⟨S_, .f32⟩
  | .hbm, ⟨53, _⟩ => ⟨S200000x64, .f32⟩
  | .hbm, ⟨54, _⟩ => ⟨S200000x64, .f32⟩
  | .hbm, ⟨55, _⟩ => ⟨S_, .i32⟩
  | .hbm, ⟨56, _⟩ => ⟨S27x100000, .i32⟩
  | .hbm, ⟨57, _⟩ => ⟨S27x100000, .i1⟩
  | .hbm, ⟨58, _⟩ => ⟨S_, .i32⟩
  | .hbm, ⟨59, _⟩ => ⟨S27x100000, .i32⟩
  | .hbm, ⟨60, _⟩ => ⟨S27x100000, .i32⟩
  | .hbm, ⟨61, _⟩ => ⟨S27x100000, .i32⟩
  | .hbm, ⟨62, _⟩ => ⟨S27x100000x1, .i32⟩
  | .hbm, ⟨63, _⟩ => ⟨S27x100000x64, .f32⟩
  | .hbm, ⟨64, _⟩ => ⟨S27x100000x64, .f32⟩
  | .hbm, ⟨65, _⟩ => ⟨S_, .f32⟩
  | .hbm, ⟨66, _⟩ => ⟨S200000x64, .f32⟩
  | .hbm, ⟨67, _⟩ => ⟨S2700000, .i32⟩
  | .hbm, ⟨68, _⟩ => ⟨S2700000x64, .f32⟩
  | .hbm, ⟨69, _⟩ => ⟨S_, .i32⟩
  | .hbm, ⟨70, _⟩ => ⟨S2700000, .i32⟩
  | .hbm, ⟨71, _⟩ => ⟨S2700000, .i1⟩
  | .hbm, ⟨72, _⟩ => ⟨S_, .i32⟩
  | .hbm, ⟨73, _⟩ => ⟨S2700000, .i32⟩
  | .hbm, ⟨74, _⟩ => ⟨S2700000, .i32⟩
  | .hbm, ⟨75, _⟩ => ⟨S2700000, .i32⟩
  | .hbm, ⟨76, _⟩ => ⟨S2700000x1, .i32⟩
  | .hbm, ⟨77, _⟩ => ⟨S200000x64, .f32⟩
  | .hbm, ⟨78, _⟩ => ⟨S1x64, .f32⟩
  | .hbm, ⟨79, _⟩ => ⟨S200000x64, .f32⟩
  | .hbm, ⟨80, _⟩ => ⟨S200000x64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64, .f32⟩
  | .hbm, ⟨85, _⟩ => ⟨S1x64, .f32⟩
  | .hbm, ⟨86, _⟩ => ⟨S200000x64, .f32⟩
  | .hbm, ⟨87, _⟩ => ⟨S200000x64, .f32⟩
  | .hbm, ⟨88, _⟩ => ⟨S1x64, .f32⟩
  | .hbm, ⟨89, _⟩ => ⟨S200000x64, .f32⟩
  | .hbm, ⟨90, _⟩ => ⟨S200000x64, .f32⟩
  | .hbm, ⟨91, _⟩ => ⟨S1x64, .f32⟩
  | .hbm, ⟨92, _⟩ => ⟨S200000x64, .f32⟩
  | .hbm, ⟨93, _⟩ => ⟨S200000x64, .f32⟩
  | .hbm, ⟨94, _⟩ => ⟨S200000x64, .f32⟩
  | .hbm, ⟨95, _⟩ => ⟨S_, .f32⟩
  | .hbm, ⟨96, _⟩ => ⟨S200000x64, .f32⟩
  | .hbm, ⟨97, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call1_cst : Ref sig .tc := ⟨.hbm, 95, rfl⟩
abbrev main_call1_v0 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S64 : S_.BroadcastsInDim S64 (![] : Fin 0 → Fin S64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S2700000x1_S2700000x64_1_0_0_1_wf : ScatterDims.WF S200000x64 S2700000x1 S2700000x64 [1] [0] [0] 1

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

class Facts : Prop extends Facts₀ where

variable [Facts]
-- ==== Proof.Spec.lean ====
/-
  The residual block of a sparse convolution network, as one function of its arguments.

  A sparse convolution with K = 27 offsets over N = 200000 active sites of C = 64 channels and M = 100000
  (input site, output site) pairs per offset is three steps: GATHER, for every offset k and pair m, the feature row of
  the input site `in_map[k, m]` (a negative site number counts from the end); MULTIPLY each gathered row by the offset's
  own C×C weight matrix, `Y[k, m, d] = Σ_l g[k, m, l] · w[k, l, d]`; and SCATTER-ADD row `(k, m)` of the products into
  row `out_map[k, m]` of an all-zero [N, C] array. The block is

      conv(w1) → batch norm → max(·, 0) → conv(w2) → batch norm → + x → max(·, 0),

  where batch norm at (n, j) is `(s(n, j) − mean_j) · (var_j + ε)^(−1/2) · gamma_j + beta_j`, the four parameter vectors
  laid out as one row [1, C].

  The gather and the scatter-add are whole-array host operations that both programs apply with the same dimension
  numbers: they are carried here as the functions `gath` and `scat` and never opened. What is stated index by index is
  only what a tiled kernel computes block by block: the per-offset product `gemm` and the two normalisations.
-/
import proofs.«155752_j68350109548654_1_alg».proof.Proof.Gen.KernelIdeal
import Idealize.ShloMosaic.PureOps.Ideal.Laws
import Idealize.ShloMosaic.Lib.ValueIdx

noncomputable section

namespace Cert.SparseConv

open Idealize.ShloMosaic Idealize.ShloMosaic.ValueIdx Cert.KernelIdeal Cert.KernelIdeal.Facts₀

/-- Features [N, C]. -/
abbrev Feat := (⟨S200000x64, .f32⟩ : BufTy).Contents (Elt Ideal)
/-- Rows per offset and pair [K, M, C]. -/
abbrev Rows := (⟨S27x100000x64, .f32⟩ : BufTy).Contents (Elt Ideal)
/-- Weights per offset [K, C, C]. -/
abbrev Wts := (⟨S27x64x64, .f32⟩ : BufTy).Contents (Elt Ideal)
/-- A parameter vector [C], and the same as one row [1, C]. -/
abbrev Par := (⟨S64, .f32⟩ : BufTy).Contents (Elt Ideal)
abbrev ParRow := (⟨S1x64, .f32⟩ : BufTy).Contents (Elt Ideal)
/-- Site numbers per offset and pair [K, M]. -/
abbrev Sites := (⟨S27x100000, .i32⟩ : BufTy).Contents (Elt Ideal)

/-! ## The two whole-array host steps, carried unopened -/

/-- The site numbers as start indices of a row gather: a negative number wrapped by N, one index column. -/
def rowIdx (im : Sites) : (⟨S27x100000x1, .i32⟩ : BufTy).Contents (Elt Ideal) :=
  broadcastInDim S27x100000x1 ![0, 1] bcast_S27x100000_S27x100000x1_0_1
    (select (cmpi .slt im (broadcastInDim S27x100000 ![] bcast_S_S27x100000 (constantI S_ 32 0#32)))
      (addi im (broadcastInDim S27x100000 ![] bcast_S_S27x100000 (constantI S_ 32 200000#32))) im)

/-- GATHER: row `(k, m)` is the feature row of site `im[k, m]`. -/
def gath (x : Feat) (im : Sites) : Rows :=
  Host.gather gather_S200000x64_S27x100000x1_S27x100000x64_2_0_n_n_0_2_164 x (rowIdx im)

/-- The site numbers, flattened to K·M, as scatter indices: wrapped by N, one index column. -/
def flatIdx (om : Sites) : (⟨S2700000x1, .i32⟩ : BufTy).Contents (Elt Ideal) :=
  broadcastInDim S2700000x1 ![0] bcast_S2700000_S2700000x1_0
    (select (cmpi .slt (shapeCast _ om shapeCasts_S27x100000_S2700000) (broadcastInDim S2700000 ![] bcast_S_S2700000 (constantI S_ 32 0#32)))
      (addi (shapeCast _ om shapeCasts_S27x100000_S2700000) (broadcastInDim S2700000 ![] bcast_S_S2700000 (constantI S_ 32 200000#32)))
      (shapeCast _ om shapeCasts_S27x100000_S2700000))

/-- SCATTER-ADD: the rows, flattened to K·M, added into an all-zero [N, C] array at the sites `om` names. -/
def scat (y : Rows) (om : Sites) : Feat :=
  Host.scatterAdd (F := Ideal) scatter_S200000x64_S2700000x1_S2700000x64_1_0_0_1
    (broadcastInDim S200000x64 ![] bcast_S_S200000x64 (constant (F := Ideal) S_ .f32 0x00000000#32)) (flatIdx om)
    (shapeCast _ y shapeCasts_S27x100000x64_S2700000x64)

/-- A parameter vector as one row. -/
def asRow (p : Par) : ParRow := shapeCast _ p shapeCasts_S64_S1x64

/-! ## The steps a tiled kernel computes, index by index -/

/-- Where the product reads the rows: offset and pair of the result, channel `l`. -/
abbrev rowsAt (i : S27x100000x64.Idx) (l : Fin 64) : S27x100000x64.Idx := fun a => match a with
  | ⟨0, _⟩ => ⟨(i 0).val, (i 0).isLt⟩
  | ⟨1, _⟩ => ⟨(i 1).val, (i 1).isLt⟩
  | ⟨2, _⟩ => ⟨l.val, l.isLt⟩
/-- Where it reads the weights: offset of the result, row `l`, the result's channel. -/
abbrev wtsAt (i : S27x100000x64.Idx) (l : Fin 64) : S27x64x64.Idx := fun a => match a with
  | ⟨0, _⟩ => ⟨(i 0).val, (i 0).isLt⟩
  | ⟨1, _⟩ => ⟨l.val, l.isLt⟩
  | ⟨2, _⟩ => ⟨(i 2).val, (i 2).isLt⟩

/-- MULTIPLY: `Y[k, m, d] = Σ_l g[k, m, l] · w[k, l, d]`. -/
def gemm (g : Rows) (w : Wts) : Rows := fun i => ∑ l : Fin 64, g (rowsAt i l) * w (wtsAt i l)

/-- The channel's entry of a parameter row. -/
abbrev chan (i : S200000x64.Idx) : S1x64.Idx := fun a => match a with
  | ⟨0, _⟩ => ⟨0, Nat.one_pos⟩
  | ⟨1, _⟩ => ⟨(i 1).val, (i 1).isLt⟩

/-- Batch norm at one entry: `(s − mean) · (var + ε)^(−1/2) · gamma + beta`, ε the f32 nearest 1e-5. -/
def norm (s γ β μ σ : EReal) : EReal :=
  (s - μ) * Ideal.rsqrt (σ + Ideal.ofBits .f32 0x3727C5AC#32) * γ + β

/-- Batch norm, then the positive part. -/
def bnRelu (s : Feat) (γ β μ σ : ParRow) : Feat := fun i =>
  max (norm (s i) (γ (chan i)) (β (chan i)) (μ (chan i)) (σ (chan i))) (Ideal.ofBits .f32 0x00000000#32)

/-- Batch norm, the residual added, then the positive part. -/
def bnResRelu (s res : Feat) (γ β μ σ : ParRow) : Feat := fun i =>
  max (norm (s i) (γ (chan i)) (β (chan i)) (μ (chan i)) (σ (chan i)) + res i) (Ideal.ofBits .f32 0x00000000#32)

/-! ## The block -/

/-- One sparse convolution: gather, multiply per offset, scatter-add. -/
def conv (x : Feat) (w : Wts) (im om : Sites) : Feat := scat (gemm (gath x im) w) om

/-- The residual block as one function of its thirteen arguments. -/
def block (x : Feat) (w1 w2 : Wts) (γ1 β1 μ1 σ1 γ2 β2 μ2 σ2 : Par) (im om : Sites) : Feat :=
  bnResRelu (conv (bnRelu (conv x w1 im om) (asRow γ1) (asRow β1) (asRow μ1) (asRow σ1)) w2 im om) x
    (asRow γ2) (asRow β2) (asRow μ2) (asRow σ2)

end Cert.SparseConv

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.GemmBlock.lean ====
/-
  The two product regions of the residual block.

  Each region runs one kernel over a 27 × 10 grid: at grid point (k, mt) it loads rows mt·10000 … mt·10000 + 9999 of
  offset k's gathered rows ([1, 10000, 64]) and offset k's weight matrix ([1, 64, 64]), multiplies them into a zero
  accumulator and stores the [1, 10000, 64] product as the same block of the output array. At the ideal values the
  block's entry (0, r, h) is Σ_l rows(0, r, l) · weights(0, l, h), so the point writes back exactly its block of
  Y[k, m, d] = Σ_l g[k, m, l] · w[k, l, d]; the 270 blocks tile [27, 100000, 64], hence the array ends holding Y.
-/
import proofs.«155752_j68350109548654_1_alg».proof.Proof.Spec
import proofs.«155752_j68350109548654_1_alg».proof.Proof.Gen.KernelIdeal.Frame
import proofs.«155752_j68350109548654_1_alg».proof.Proof.LibDenseLayer
import Idealize.ShloMosaic.Lib.Pipeline.Value
import Idealize.ShloMosaic.Lib.ValueLayout
set_option maxRecDepth 16384

noncomputable section

namespace Cert.SparseConv.GemmBlock

open Idealize.ShloMosaic Idealize.ShloMosaic.TcCoe Idealize.ShloMosaic.ValueIdx Idealize.SL.Sem
open Cert.KernelIdeal Cert.KernelIdeal.Gen Cert.SparseConv
open Idealize.ShloMosaic.Pipeline (Dat Cfg Window)

/-! ## The block product at an index -/

/-- The block product at an index: row r of the block against column h of the offset's weight matrix,
    Σ_l rows(0, r, l) · weights(0, l, h). The two leading unit axes are dropped and put back by casts, the change of
    format is the identity at the ideal values, and the product into the zero accumulator is the plain sum. -/
theorem pay0_apply (x0 : Vec Ideal S1x10000x64 .f32) (x1 : Vec Ideal S1x64x64 .f32) (r : Fin 10000) (h : Fin 64) :
    k0_pay1 x0 x1 (ix3 (0 : Fin 1) r h) = ∑ l : Fin 64, x0 (ix3 (0 : Fin 1) r l) * x1 (ix3 (0 : Fin 1) l h) := by
  unfold k0_pay1
  refine (shapeCast_ab_1ab_apply _ _ (0 : Fin 1) r h).trans ?_
  unfold dot_S10000x64_S64x64_S10000x64_1_0_0_1_n_n
  refine (Idealize.ShloMosaic.DenseLayer.matmul_rows_apply _ none _ _ r h).trans ?_
  refine Finset.sum_congr rfl fun l _ => ?_
  exact congrArg₂ (· * ·) (shapeCast_1ab_ab_apply x0 _ r l) (shapeCast_1ab_ab_apply x1 _ l h)

/-- The second convolution's block product is the same term. -/
theorem pay2_apply (x0 : Vec Ideal S1x10000x64 .f32) (x1 : Vec Ideal S1x64x64 .f32) (r : Fin 10000) (h : Fin 64) :
    k2_pay1 x0 x1 (ix3 (0 : Fin 1) r h) = ∑ l : Fin 64, x0 (ix3 (0 : Fin 1) r l) * x1 (ix3 (0 : Fin 1) l h) :=
  pay0_apply x0 x1 r h

/-- The zero offsets of a whole-buffer access, as a constant function. -/
theorem hz : (![0, 0, 0] : Fin 3 → Nat) = fun _ => 0 := funext fun a => by fin_cases a <;> rfl

/-! ## The first convolution's product region -/

/-- The printed index maps, decided once over the 27 × 10 grid points: the rows' block moves with the product's block
    (offset k, row block mt, the whole channel axis), the weights' block is the offset's matrix (k, 0, 0), and the
    product's block indices stay inside 27 offsets and 10 row blocks. -/
theorem idx_rel0 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 26
    ∧ win0_2.index t (1 : Fin 3) ≤ 9
    ∧ win0_2.index t (2 : Fin 3) = 0 :=
  (by decide +kernel : ∀ t : Fin grid0.N, _)

/-- What grid point t writes back is block t of the per-offset product of the arrays the region was entered with. -/
theorem flushed0 (V : (c : Dev nD) → (b : Ref sig .tc) → Buf (Elt Ideal) ((c : Thread nD τ).loc b)) (c : Dev nD) (t : Fin cfg0.N) :
    (dat0 V c).flushed 2 t = ((cfg0.win 2).blk t).view.read (Elt Ideal) (gemm (V c main_v6) (V c main_arg1)) := by
  show (cfg0.win 2).cut (grid0.coords t) ((dat0 V c).after 2 t) = _
  rw [after0_2]
  unfold out0_2
  rw [View.canon_unit_zero hz]
  simp only [View.ld_unit_zero (S := S1x10000x64) hz, View.ld_unit_zero (S := S1x64x64) hz]
  obtain ⟨e00, e01, e02, e10, e11, e12, b0, b1, e22⟩ := idx_rel0 t
  funext j
  obtain ⟨p, q, s, rfl⟩ : ∃ (p : Fin 1) (q : Fin 10000) (s : Fin 64), j = ix3 p q s :=
    ⟨j 0, j 1, j 2, eq_ix3 (n0 := 1) (n1 := 10000) (n2 := 64) j⟩
  obtain rfl : p = 0 := Subsingleton.elim _ _
  show k0_pay1 (iblk0 V c 0 t) (iblk0 V c 1 t) (ix3 (0 : Fin 1) q s)
    = gemm (V c main_v6) (V c main_arg1) (((cfg0.win 2).blk t).view.emb (ix3 (0 : Fin 1) q s))
  refine (pay0_apply (iblk0 V c 0 t) (iblk0 V c 1 t) q s).trans ?_
  refine Finset.sum_congr rfl fun l _ => ?_
  have hq : q.val < 10000 := q.isLt
  have hs : s.val < 64 := s.isLt
  have hl : l.val < 64 := l.isLt
  have hrows : ((cfg0.win 0).blk t).view.emb (ix3 (0 : Fin 1) q l)
      = rowsAt (((cfg0.win 2).blk t).view.emb (ix3 (0 : Fin 1) q s)) l := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 10000 + 1 * q.val = win0_2.index t (1 : Fin 3) * 10000 + 1 * q.val; omega
    | ⟨2, _⟩ => show win0_0.index t (2 : Fin 3) * 64 + 1 * l.val = l.val; omega
  have hwts : ((cfg0.win 1).blk t).view.emb (ix3 (0 : Fin 1) l s)
      = wtsAt (((cfg0.win 2).blk t).view.emb (ix3 (0 : Fin 1) q s)) l := by
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 64 + 1 * l.val = l.val; omega
    | ⟨2, _⟩ => show win0_1.index t (2 : Fin 3) * 64 + 1 * s.val = win0_2.index t (2 : Fin 3) * 64 + 1 * s.val; omega
  exact congrArg₂ (· * ·) (congrArg (V c main_v6) hrows) (congrArg (V c main_arg1) hwts)

/-- An index of the product array lies in grid point t's block iff each coordinate lies in the block's range on its
    axis. -/
theorem mem_blk0 (t : Fin cfg0.N) (i : S27x100000x64.Idx) :
    i ∈ ((cfg0.win 2).blk t).view.set ↔ ∀ a : Fin 3, win0_2.index t a * S1x10000x64.size a ≤ (i a).val
      ∧ (i a).val < win0_2.index t a * S1x10000x64.size a + S1x10000x64.size a := by
  show i ∈ ((View.whole main_v7).slice (win0_2.rect t)).set ↔ _
  rw [View.set_slice_whole, Rect.mem_set_unit]
  exact Iff.rfl

/-- Every pair (offset, row block) is some grid point's block: the point numbered 10 · offset + row block. -/
theorem idx_onto0 : ∀ (q0 : Fin 27) (q1 : Fin 10), ∃ t : Fin cfg0.N, win0_2.index t = ![q0.val, q1.val, 0] :=
  fun q0 q1 => ⟨⟨(q0.val * 10 + q1.val) % grid0.N, Nat.mod_lt _ (by decide)⟩,
    (by decide +kernel : ∀ (q0 : Fin 27) (q1 : Fin 10),
      win0_2.index (⟨(q0.val * 10 + q1.val) % grid0.N, Nat.mod_lt _ (by decide)⟩ : Fin grid0.N) = ![q0.val, q1.val, 0]) q0 q1⟩

/-- The blocks tile the product array: the index (k, m, d) lies in the block of offset k and row block m / 10000, and
    every grid point writes its block back. -/
theorem cover0 (i : S27x100000x64.Idx) :
    ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  obtain ⟨t, ht⟩ := idx_onto0 ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 64 ≤ (i 2).val ∧ (i 2).val < win0_2.index t (2 : Fin 3) * 64 + 64; omega

/-- The first convolution's product region: after its 27 × 10 grid points the output array holds the per-offset
    product of the rows and weights the region was entered with. -/
theorem gemm0 (V : (c : Dev nD) → (b : Ref sig .tc) → Buf (Elt Ideal) ((c : Thread nD τ).loc b)) (c : Dev nD) :
    (dat0 V c).arrAt 2 cfg0.N = gemm (V c main_v6) (V c main_arg1) :=
  (dat0 V c).arrAt_eq_of_cover 2 (gemm (V c main_v6) (V c main_arg1)) (fun t _ => flushed0 V c t) cover0

/-! ## The second convolution's product region -/

/-- The second region's index maps, decided over its 27 × 10 grid points: the same relations between the rows',
    the weights' and the product's blocks. -/
theorem idx_rel2 : ∀ t : Fin cfg2.N, win2_0.index t (0 : Fin 3) = win2_2.index t (0 : Fin 3)
    ∧ win2_0.index t (1 : Fin 3) = win2_2.index t (1 : Fin 3)
    ∧ win2_0.index t (2 : Fin 3) = 0
    ∧ win2_1.index t (0 : Fin 3) = win2_2.index t (0 : Fin 3)
    ∧ win2_1.index t (1 : Fin 3) = 0
    ∧ win2_1.index t (2 : Fin 3) = 0
    ∧ win2_2.index t (0 : Fin 3) ≤ 26
    ∧ win2_2.index t (1 : Fin 3) ≤ 9
    ∧ win2_2.index t (2 : Fin 3) = 0 :=
  (by decide +kernel : ∀ t : Fin grid2.N, _)

/-- What grid point t of the second region writes back is block t of the per-offset product of the second layer's
    rows and weights. -/
theorem flushed2 (V : (c : Dev nD) → (b : Ref sig .tc) → Buf (Elt Ideal) ((c : Thread nD τ).loc b)) (c : Dev nD) (t : Fin cfg2.N) :
    (dat2 V c).flushed 2 t = ((cfg2.win 2).blk t).view.read (Elt Ideal) (gemm (V c main_v29) (V c main_arg2)) := by
  show (cfg2.win 2).cut (grid2.coords t) ((dat2 V c).after 2 t) = _
  rw [after2_2]
  unfold out2_2
  rw [View.canon_unit_zero hz]
  simp only [View.ld_unit_zero (S := S1x10000x64) hz, View.ld_unit_zero (S := S1x64x64) hz]
  obtain ⟨e00, e01, e02, e10, e11, e12, b0, b1, e22⟩ := idx_rel2 t
  funext j
  obtain ⟨p, q, s, rfl⟩ : ∃ (p : Fin 1) (q : Fin 10000) (s : Fin 64), j = ix3 p q s :=
    ⟨j 0, j 1, j 2, eq_ix3 (n0 := 1) (n1 := 10000) (n2 := 64) j⟩
  obtain rfl : p = 0 := Subsingleton.elim _ _
  show k2_pay1 (iblk2 V c 0 t) (iblk2 V c 1 t) (ix3 (0 : Fin 1) q s)
    = gemm (V c main_v29) (V c main_arg2) (((cfg2.win 2).blk t).view.emb (ix3 (0 : Fin 1) q s))
  refine (pay2_apply (iblk2 V c 0 t) (iblk2 V c 1 t) q s).trans ?_
  refine Finset.sum_congr rfl fun l _ => ?_
  have hq : q.val < 10000 := q.isLt
  have hs : s.val < 64 := s.isLt
  have hl : l.val < 64 := l.isLt
  have hrows : ((cfg2.win 0).blk t).view.emb (ix3 (0 : Fin 1) q l)
      = rowsAt (((cfg2.win 2).blk t).view.emb (ix3 (0 : Fin 1) q s)) l := by
    funext a; apply Fin.ext
    match a with
    | ⟨0, _⟩ => show win2_0.index t (0 : Fin 3) * 1 + 1 * 0 = win2_2.index t (0 : Fin 3) * 1 + 1 * 0; omega
    | ⟨1, _⟩ => show win2_0.index t (1 : Fin 3) * 10000 + 1 * q.val = win2_2.index t (1 : Fin 3) * 10000 + 1 * q.val; omega
    | ⟨2, _⟩ => show win2_0.index t (2 : Fin 3) * 64 + 1 * l.val = l.val; omega
  have hwts : ((cfg2.win 1).blk t).view.emb (ix3 (0 : Fin 1) l s)
      = wtsAt (((cfg2.win 2).blk t).view.emb (ix3 (0 : Fin 1) q s)) l := by
    funext a; apply Fin.ext
    match a with
    | ⟨0, _⟩ => show win2_1.index t (0 : Fin 3) * 1 + 1 * 0 = win2_2.index t (0 : Fin 3) * 1 + 1 * 0; omega
    | ⟨1, _⟩ => show win2_1.index t (1 : Fin 3) * 64 + 1 * l.val = l.val; omega
    | ⟨2, _⟩ => show win2_1.index t (2 : Fin 3) * 64 + 1 * s.val = win2_2.index t (2 : Fin 3) * 64 + 1 * s.val; omega
  exact congrArg₂ (· * ·) (congrArg (V c main_v29) hrows) (congrArg (V c main_arg2) hwts)

/-- Membership in a block of the second product array, coordinate by coordinate. -/
theorem mem_blk2 (t : Fin cfg2.N) (i : S27x100000x64.Idx) :
    i ∈ ((cfg2.win 2).blk t).view.set ↔ ∀ a : Fin 3, win2_2.index t a * S1x10000x64.size a ≤ (i a).val
      ∧ (i a).val < win2_2.index t a * S1x10000x64.size a + S1x10000x64.size a := by
  show i ∈ ((View.whole main_v30).slice (win2_2.rect t)).set ↔ _
  rw [View.set_slice_whole, Rect.mem_set_unit]
  exact Iff.rfl

/-- Every pair (offset, row block) is some grid point's block in the second region too. -/
theorem idx_onto2 : ∀ (q0 : Fin 27) (q1 : Fin 10), ∃ t : Fin cfg2.N, win2_2.index t = ![q0.val, q1.val, 0] :=
  fun q0 q1 => ⟨⟨(q0.val * 10 + q1.val) % grid2.N, Nat.mod_lt _ (by decide)⟩,
    (by decide +kernel : ∀ (q0 : Fin 27) (q1 : Fin 10),
      win2_2.index (⟨(q0.val * 10 + q1.val) % grid2.N, Nat.mod_lt _ (by decide)⟩ : Fin grid2.N) = ![q0.val, q1.val, 0]) q0 q1⟩

/-- The second region's blocks tile its product array. -/
theorem cover2 (i : S27x100000x64.Idx) :
    ∃ t : Fin cfg2.N, (cfg2.win 2).flush t = true ∧ i ∈ ((cfg2.win 2).blk t).view.set := by
  have hi0 : (i 0).val < 27 := (i 0).isLt
  have hi1 : (i 1).val < 100000 := (i 1).isLt
  have hi2 : (i 2).val < 64 := (i 2).isLt
  obtain ⟨t, ht⟩ := idx_onto2 ⟨(i 0).val, hi0⟩ ⟨(i 1).val / 10000, by omega⟩
  have q0 : win2_2.index t (0 : Fin 3) = (i 0).val := congrFun ht 0
  have q1 : win2_2.index t (1 : Fin 3) = (i 1).val / 10000 := congrFun ht 1
  have q2 : win2_2.index t (2 : Fin 3) = 0 := congrFun ht 2
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 10000 ≤ (i 1).val ∧ (i 1).val < win2_2.index t (1 : Fin 3) * 10000 + 10000; omega
  | ⟨2, _⟩ => show win2_2.index t (2 : Fin 3) * 64 ≤ (i 2).val ∧ (i 2).val < win2_2.index t (2 : Fin 3) * 64 + 64; omega

/-- The second convolution's product region, the same kernel on the second layer's rows and weights. -/
theorem gemm2 (V : (c : Dev nD) → (b : Ref sig .tc) → Buf (Elt Ideal) ((c : Thread nD τ).loc b)) (c : Dev nD) :
    (dat2 V c).arrAt 2 cfg2.N = gemm (V c main_v29) (V c main_arg2) :=
  (dat2 V c).arrAt_eq_of_cover 2 (gemm (V c main_v29) (V c main_arg2)) (fun t _ => flushed2 V c t) cover2

end Cert.SparseConv.GemmBlock

end
-- ==== Proof.BnBlock.lean ====
import proofs.«155752_j68350109548654_1_alg».proof.Proof.Spec
import proofs.«155752_j68350109548654_1_alg».proof.Proof.Gen.KernelIdeal.Frame
import Idealize.ShloMosaic.Lib.Pipeline.Value
import Idealize.ShloMosaic.Lib.ValueLayout
set_option maxRecDepth 16384

noncomputable section

namespace Cert.SparseConv.BnBlock

open Idealize.ShloMosaic Idealize.ShloMosaic.TcCoe Idealize.ShloMosaic.ValueIdx Idealize.SL.Sem
open Cert.KernelIdeal Cert.KernelIdeal.Gen Cert.SparseConv
open Idealize.ShloMosaic.Pipeline (Dat Cfg Window)

/-! ## The first normalisation -/

/-- The zero offsets of a whole-buffer access, as the constant function. -/
theorem zeroOff : (![0, 0] : Fin 2 → Nat) = fun _ => 0 :=
  funext fun a => match a with | ⟨0, _⟩ => rfl | ⟨1, _⟩ => rfl

/-- The body's result at row `p`, channel `q` of a block: batch norm of the block's entry with the channel's
    entries of the four parameter rows, then the positive part. The body subtracts the mean row, multiplies by the
    reciprocal square root of the variance row plus ε, then by the scale row, adds the shift row, and takes the maximum
    with zero; each row is broadcast over the block's rows. -/
theorem pay1_apply (x0 : Vec Ideal S10000x64 .f32) (vμ vσ vγ vβ : Vec Ideal S1x64 .f32) (p : Fin 10000) (q : Fin 64) :
    k1_pay1 x0 vμ vσ vγ vβ (ix2 p q)
      = max (norm (x0 (ix2 p q)) (vγ (ix2 0 q)) (vβ (ix2 0 q)) (vμ (ix2 0 q)) (vσ (ix2 0 q))) (Ideal.ofBits .f32 0x00000000#32) := by
  unfold k1_pay1 norm
  simp only [shapeCast_self]
  show max (((x0 (ix2 p q)) - broadcastTo S10000x64 vμ broadcasts_S1x64_S10000x64 (ix2 p q))
      * broadcastTo S10000x64 (rsqrt (addf vσ (broadcast S1x64 (Scalar.ofBits (F := Ideal) .f32 0x3727C5AC#32)))) broadcasts_S1x64_S10000x64 (ix2 p q)
      * broadcastTo S10000x64 vγ broadcasts_S1x64_S10000x64 (ix2 p q)
      + broadcastTo S10000x64 vβ broadcasts_S1x64_S10000x64 (ix2 p q)) _ = _
  rw [broadcastTo_1b_ab_apply, broadcastTo_1b_ab_apply, broadcastTo_1b_ab_apply, broadcastTo_1b_ab_apply]
  rfl

/-- The index maps over the 20 grid points: the input block moves with the output block, row block `i` of the one
    column block; each parameter row is the one block (0, 0). -/
theorem idx_facts1 : ∀ t : Fin cfg1.N,
    win1_0.index t (0 : Fin 2) = win1_5.index t (0 : Fin 2) ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

section
variable (V : (c : Dev nD) → (b : Ref sig .tc) → Buf (Elt Ideal) ((c : Thread nD τ).loc b)) (c : Dev nD)
  (t : Fin cfg1.N) (p : Fin 10000) (q : Fin 64)

/-- The input block's entry (p, q) is the entry array's where the output block's entry (p, q) lies. -/
theorem rows1 : iblk1 V c 0 t (ix2 p q) = V c main_v17 (((cfg1.win 5).blk t).view.emb (ix2 p q)) := by
  obtain ⟨e0, e1, -⟩ := idx_facts1 t
  have hp : p.val < 10000 := p.isLt
  have hq : q.val < 64 := q.isLt
  show V c main_v17 (((cfg1.win 0).blk t).view.emb (ix2 p q)) = _
  refine congrArg (V c main_v17) ?_
  funext a; apply Fin.ext
  match a with
  | ⟨0, _⟩ =>
    show win1_0.index t (0 : Fin 2) * 10000 + 1 * p.val = win1_5.index t (0 : Fin 2) * 10000 + 1 * p.val
    omega
  | ⟨1, _⟩ =>
    show win1_0.index t (1 : Fin 2) * 64 + 1 * q.val = win1_5.index t (1 : Fin 2) * 64 + 1 * q.val
    omega

/-- The scale row's entry q is the row's entry at the channel of the output block's entry (p, q). -/
theorem scale1 : iblk1 V c 1 t (ix2 0 q) = V c main_v18 (chan (((cfg1.win 5).blk t).view.emb (ix2 p q))) := by
  obtain ⟨-, -, g0, g1, -, -, -, -, -, -, -, o1⟩ := idx_facts1 t
  have hq : q.val < 64 := q.isLt
  show V c main_v18 (((cfg1.win 1).blk t).view.emb (ix2 0 q)) = _
  refine congrArg (V c main_v18) ?_
  funext a; apply Fin.ext
  match a with
  | ⟨0, _⟩ => show win1_1.index t (0 : Fin 2) * 1 + 1 * 0 = 0; omega
  | ⟨1, _⟩ => show win1_1.index t (1 : Fin 2) * 64 + 1 * q.val = win1_5.index t (1 : Fin 2) * 64 + 1 * q.val; omega

/-- The shift row's entry q, likewise. -/
theorem shift1 : iblk1 V c 2 t (ix2 0 q) = V c main_v19 (chan (((cfg1.win 5).blk t).view.emb (ix2 p q))) := by
  obtain ⟨-, -, -, -, b0, b1, -, -, -, -, -, o1⟩ := idx_facts1 t
  have hq : q.val < 64 := q.isLt
  show V c main_v19 (((cfg1.win 2).blk t).view.emb (ix2 0 q)) = _
  refine congrArg (V c main_v19) ?_
  funext a; apply Fin.ext
  match a with
  | ⟨0, _⟩ => show win1_2.index t (0 : Fin 2) * 1 + 1 * 0 = 0; omega
  | ⟨1, _⟩ => show win1_2.index t (1 : Fin 2) * 64 + 1 * q.val = win1_5.index t (1 : Fin 2) * 64 + 1 * q.val; omega

/-- The mean row's entry q, likewise. -/
theorem mean1 : iblk1 V c 3 t (ix2 0 q) = V c main_v20 (chan (((cfg1.win 5).blk t).view.emb (ix2 p q))) := by
  obtain ⟨-, -, -, -, -, -, m0, m1, -, -, -, o1⟩ := idx_facts1 t
  have hq : q.val < 64 := q.isLt
  show V c main_v20 (((cfg1.win 3).blk t).view.emb (ix2 0 q)) = _
  refine congrArg (V c main_v20) ?_
  funext a; apply Fin.ext
  match a with
  | ⟨0, _⟩ => show win1_3.index t (0 : Fin 2) * 1 + 1 * 0 = 0; omega
  | ⟨1, _⟩ => show win1_3.index t (1 : Fin 2) * 64 + 1 * q.val = win1_5.index t (1 : Fin 2) * 64 + 1 * q.val; omega

/-- The variance row's entry q, likewise. -/
theorem var1 : iblk1 V c 4 t (ix2 0 q) = V c main_v21 (chan (((cfg1.win 5).blk t).view.emb (ix2 p q))) := by
  obtain ⟨-, -, -, -, -, -, -, -, s0, s1, -, o1⟩ := idx_facts1 t
  have hq : q.val < 64 := q.isLt
  show V c main_v21 (((cfg1.win 4).blk t).view.emb (ix2 0 q)) = _
  refine congrArg (V c main_v21) ?_
  funext a; apply Fin.ext
  match a with
  | ⟨0, _⟩ => show win1_4.index t (0 : Fin 2) * 1 + 1 * 0 = 0; omega
  | ⟨1, _⟩ => show win1_4.index t (1 : Fin 2) * 64 + 1 * q.val = win1_5.index t (1 : Fin 2) * 64 + 1 * q.val; omega

end

/-- What grid point `t` writes back is block `t` of batch norm and the positive part of the entry arrays. -/
theorem flushed1 (V : (c : Dev nD) → (b : Ref sig .tc) → Buf (Elt Ideal) ((c : Thread nD τ).loc b)) (c : Dev nD) (t : Fin cfg1.N) :
    (dat1 V c).flushed 5 t = ((cfg1.win 5).blk t).view.read (Elt Ideal)
      (bnRelu (V c main_v17) (V c main_v18) (V c main_v19) (V c main_v20) (V c main_v21)) := by
  show (cfg1.win 5).cut (grid1.coords t) ((dat1 V c).after 5 t) = _
  rw [after1_5]
  unfold out1_5
  rw [View.canon_unit_zero zeroOff]
  simp only [View.ld_unit_zero (S := S10000x64) zeroOff, View.ld_unit_zero (S := S1x64) zeroOff]
  funext j
  obtain ⟨p, q, rfl⟩ : ∃ (p : Fin 10000) (q : Fin 64), j = ix2 p q := ⟨j 0, j 1, eq_ix2 j⟩
  refine (pay1_apply (iblk1 V c 0 t) (iblk1 V c 3 t) (iblk1 V c 4 t) (iblk1 V c 1 t) (iblk1 V c 2 t) p q).trans ?_
  rw [rows1 V c t p q, scale1 V c t p q, shift1 V c t p q, mean1 V c t p q, var1 V c t p q]
  rfl

/-- An index of the array lies in point `t`'s block iff, on each axis, its coordinate lies in the block's range. -/
theorem mem_blk1 (t : Fin cfg1.N) (i : S200000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v22).slice (win1_5.rect t)).set ↔ _
  rw [View.set_slice_whole, Rect.mem_set_unit]
  exact Iff.rfl

/-- Every one of the 20 row blocks is some grid point's. -/
theorem idx_onto1 : ∀ r : Fin 20, ∃ t : Fin cfg1.N, win1_5.index t = ![r.val, 0] :=
  (by decide +kernel : ∀ r : Fin 20, ∃ t : Fin grid1.N, win1_5.index t = ![r.val, 0])

/-- The blocks cover the array: row `n` lies in row block `n / 10000`, which some point writes back. -/
theorem cover1 (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- The first normalisation region: after its 20 grid points the output array holds batch norm and the positive part
    of the array it was entered with, the four parameter rows as entered. -/
theorem bn1 (V : (c : Dev nD) → (b : Ref sig .tc) → Buf (Elt Ideal) ((c : Thread nD τ).loc b)) (c : Dev nD) :
    (dat1 V c).arrAt 5 cfg1.N = bnRelu (V c main_v17) (V c main_v18) (V c main_v19) (V c main_v20) (V c main_v21) :=
  (dat1 V c).arrAt_eq_of_cover 5 (bnRelu (V c main_v17) (V c main_v18) (V c main_v19) (V c main_v20) (V c main_v21))
    (fun t _ => flushed1 V c t) cover1

/-! ## The second normalisation, with the residual -/

/-- The body's result at row `p`, channel `q` of a block: batch norm as in the first normalisation, the residual
    block's entry added, then the positive part. -/
theorem pay3_apply (x0 : Vec Ideal S10000x64 .f32) (vμ vσ vγ vβ : Vec Ideal S1x64 .f32) (xr : Vec Ideal S10000x64 .f32)
    (p : Fin 10000) (q : Fin 64) :
    k3_pay1 x0 vμ vσ vγ vβ xr (ix2 p q)
      = max (norm (x0 (ix2 p q)) (vγ (ix2 0 q)) (vβ (ix2 0 q)) (vμ (ix2 0 q)) (vσ (ix2 0 q)) + xr (ix2 p q))
          (Ideal.ofBits .f32 0x00000000#32) := by
  unfold k3_pay1 norm
  simp only [shapeCast_self]
  show max ((((x0 (ix2 p q)) - broadcastTo S10000x64 vμ broadcasts_S1x64_S10000x64 (ix2 p q))
      * broadcastTo S10000x64 (rsqrt (addf vσ (broadcast S1x64 (Scalar.ofBits (F := Ideal) .f32 0x3727C5AC#32)))) broadcasts_S1x64_S10000x64 (ix2 p q)
      * broadcastTo S10000x64 vγ broadcasts_S1x64_S10000x64 (ix2 p q)
      + broadcastTo S10000x64 vβ broadcasts_S1x64_S10000x64 (ix2 p q)) + xr (ix2 p q)) _ = _
  rw [broadcastTo_1b_ab_apply, broadcastTo_1b_ab_apply, broadcastTo_1b_ab_apply, broadcastTo_1b_ab_apply]
  rfl

/-- The index maps over the 20 grid points: the input block and the residual block move with the output block, row
    block `i` of the one column block; each parameter row is the one block (0, 0). -/
theorem idx_facts3 : ∀ t : Fin cfg3.N,
    win3_0.index t (0 : Fin 2) = win3_6.index t (0 : Fin 2) ∧ win3_0.index t (1 : Fin 2) = win3_6.index t (1 : Fin 2)
    ∧ win3_1.index t (0 : Fin 2) = win3_6.index t (0 : Fin 2) ∧ win3_1.index t (1 : Fin 2) = win3_6.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 19 ∧ win3_6.index t (1 : Fin 2) = 0 :=
  (by decide +kernel : ∀ t : Fin grid3.N, _)

section
variable (V : (c : Dev nD) → (b : Ref sig .tc) → Buf (Elt Ideal) ((c : Thread nD τ).loc b)) (c : Dev nD)
  (t : Fin cfg3.N) (p : Fin 10000) (q : Fin 64)

/-- The input block's entry (p, q) is the entry array's where the output block's entry (p, q) lies. -/
theorem rows3 : iblk3 V c 0 t (ix2 p q) = V c main_v40 (((cfg3.win 6).blk t).view.emb (ix2 p q)) := by
  obtain ⟨e0, e1, -⟩ := idx_facts3 t
  have hp : p.val < 10000 := p.isLt
  have hq : q.val < 64 := q.isLt
  show V c main_v40 (((cfg3.win 0).blk t).view.emb (ix2 p q)) = _
  refine congrArg (V c main_v40) ?_
  funext a; apply Fin.ext
  match a with
  | ⟨0, _⟩ =>
    show win3_0.index t (0 : Fin 2) * 10000 + 1 * p.val = win3_6.index t (0 : Fin 2) * 10000 + 1 * p.val
    omega
  | ⟨1, _⟩ =>
    show win3_0.index t (1 : Fin 2) * 64 + 1 * q.val = win3_6.index t (1 : Fin 2) * 64 + 1 * q.val
    omega

/-- The residual block's entry (p, q), likewise. -/
theorem res3 : iblk3 V c 1 t (ix2 p q) = V c main_arg0 (((cfg3.win 6).blk t).view.emb (ix2 p q)) := by
  obtain ⟨-, -, r0, r1, -⟩ := idx_facts3 t
  have hp : p.val < 10000 := p.isLt
  have hq : q.val < 64 := q.isLt
  show V c main_arg0 (((cfg3.win 1).blk t).view.emb (ix2 p q)) = _
  refine congrArg (V c main_arg0) ?_
  funext a; apply Fin.ext
  match a with
  | ⟨0, _⟩ =>
    show win3_1.index t (0 : Fin 2) * 10000 + 1 * p.val = win3_6.index t (0 : Fin 2) * 10000 + 1 * p.val
    omega
  | ⟨1, _⟩ =>
    show win3_1.index t (1 : Fin 2) * 64 + 1 * q.val = win3_6.index t (1 : Fin 2) * 64 + 1 * q.val
    omega

/-- The scale row's entry q is the row's entry at the channel of the output block's entry (p, q). -/
theorem scale3 : iblk3 V c 2 t (ix2 0 q) = V c main_v41 (chan (((cfg3.win 6).blk t).view.emb (ix2 p q))) := by
  obtain ⟨-, -, -, -, g0, g1, -, -, -, -, -, -, -, o1⟩ := idx_facts3 t
  have hq : q.val < 64 := q.isLt
  show V c main_v41 (((cfg3.win 2).blk t).view.emb (ix2 0 q)) = _
  refine congrArg (V c main_v41) ?_
  funext a; apply Fin.ext
  match a with
  | ⟨0, _⟩ => show win3_2.index t (0 : Fin 2) * 1 + 1 * 0 = 0; omega
  | ⟨1, _⟩ => show win3_2.index t (1 : Fin 2) * 64 + 1 * q.val = win3_6.index t (1 : Fin 2) * 64 + 1 * q.val; omega

/-- The shift row's entry q, likewise. -/
theorem shift3 : iblk3 V c 3 t (ix2 0 q) = V c main_v42 (chan (((cfg3.win 6).blk t).view.emb (ix2 p q))) := by
  obtain ⟨-, -, -, -, -, -, b0, b1, -, -, -, -, -, o1⟩ := idx_facts3 t
  have hq : q.val < 64 := q.isLt
  show V c main_v42 (((cfg3.win 3).blk t).view.emb (ix2 0 q)) = _
  refine congrArg (V c main_v42) ?_
  funext a; apply Fin.ext
  match a with
  | ⟨0, _⟩ => show win3_3.index t (0 : Fin 2) * 1 + 1 * 0 = 0; omega
  | ⟨1, _⟩ => show win3_3.index t (1 : Fin 2) * 64 + 1 * q.val = win3_6.index t (1 : Fin 2) * 64 + 1 * q.val; omega

/-- The mean row's entry q, likewise. -/
theorem mean3 : iblk3 V c 4 t (ix2 0 q) = V c main_v43 (chan (((cfg3.win 6).blk t).view.emb (ix2 p q))) := by
  obtain ⟨-, -, -, -, -, -, -, -, m0, m1, -, -, -, o1⟩ := idx_facts3 t
  have hq : q.val < 64 := q.isLt
  show V c main_v43 (((cfg3.win 4).blk t).view.emb (ix2 0 q)) = _
  refine congrArg (V c main_v43) ?_
  funext a; apply Fin.ext
  match a with
  | ⟨0, _⟩ => show win3_4.index t (0 : Fin 2) * 1 + 1 * 0 = 0; omega
  | ⟨1, _⟩ => show win3_4.index t (1 : Fin 2) * 64 + 1 * q.val = win3_6.index t (1 : Fin 2) * 64 + 1 * q.val; omega

/-- The variance row's entry q, likewise. -/
theorem var3 : iblk3 V c 5 t (ix2 0 q) = V c main_v44 (chan (((cfg3.win 6).blk t).view.emb (ix2 p q))) := by
  obtain ⟨-, -, -, -, -, -, -, -, -, -, s0, s1, -, o1⟩ := idx_facts3 t
  have hq : q.val < 64 := q.isLt
  show V c main_v44 (((cfg3.win 5).blk t).view.emb (ix2 0 q)) = _
  refine congrArg (V c main_v44) ?_
  funext a; apply Fin.ext
  match a with
  | ⟨0, _⟩ => show win3_5.index t (0 : Fin 2) * 1 + 1 * 0 = 0; omega
  | ⟨1, _⟩ => show win3_5.index t (1 : Fin 2) * 64 + 1 * q.val = win3_6.index t (1 : Fin 2) * 64 + 1 * q.val; omega

end

/-- What grid point `t` writes back is block `t` of batch norm, the residual added, and the positive part, of the
    entry arrays. -/
theorem flushed3 (V : (c : Dev nD) → (b : Ref sig .tc) → Buf (Elt Ideal) ((c : Thread nD τ).loc b)) (c : Dev nD) (t : Fin cfg3.N) :
    (dat3 V c).flushed 6 t = ((cfg3.win 6).blk t).view.read (Elt Ideal)
      (bnResRelu (V c main_v40) (V c main_arg0) (V c main_v41) (V c main_v42) (V c main_v43) (V c main_v44)) := by
  show (cfg3.win 6).cut (grid3.coords t) ((dat3 V c).after 6 t) = _
  rw [after3_6]
  unfold out3_6
  rw [View.canon_unit_zero zeroOff]
  simp only [View.ld_unit_zero (S := S10000x64) zeroOff, View.ld_unit_zero (S := S1x64) zeroOff]
  funext j
  obtain ⟨p, q, rfl⟩ : ∃ (p : Fin 10000) (q : Fin 64), j = ix2 p q := ⟨j 0, j 1, eq_ix2 j⟩
  refine (pay3_apply (iblk3 V c 0 t) (iblk3 V c 4 t) (iblk3 V c 5 t) (iblk3 V c 2 t) (iblk3 V c 3 t) (iblk3 V c 1 t) p q).trans ?_
  rw [rows3 V c t p q, res3 V c t p q, scale3 V c t p q, shift3 V c t p q, mean3 V c t p q, var3 V c t p q]
  rfl

/-- An index of the array lies in point `t`'s block iff, on each axis, its coordinate lies in the block's range. -/
theorem mem_blk3 (t : Fin cfg3.N) (i : S200000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v45).slice (win3_6.rect t)).set ↔ _
  rw [View.set_slice_whole, Rect.mem_set_unit]
  exact Iff.rfl

/-- Every one of the 20 row blocks is some grid point's. -/
theorem idx_onto3 : ∀ r : Fin 20, ∃ t : Fin cfg3.N, win3_6.index t = ![r.val, 0] :=
  (by decide +kernel : ∀ r : Fin 20, ∃ t : Fin grid3.N, win3_6.index t = ![r.val, 0])

/-- The blocks cover the array: row `n` lies in row block `n / 10000`, which some point writes back. -/
theorem cover3 (i : S200000x64.Idx) :
    ∃ t : Fin cfg3.N, (cfg3.win 6).flush t = true ∧ i ∈ ((cfg3.win 6).blk t).view.set := by
  have hi0 : (i 0).val < 200000 := (i 0).isLt
  have hi1 : (i 1).val < 64 := (i 1).isLt
  obtain ⟨t, ht⟩ := idx_onto3 ⟨(i 0).val / 10000, by omega⟩
  have q0 : win3_6.index t (0 : Fin 2) = (i 0).val / 10000 := congrFun ht 0
  have q1 : win3_6.index t (1 : Fin 2) = 0 := congrFun ht 1
  refine ⟨t, flush3_6 t, ?_⟩
  rw [mem_blk3]
  intro a
  match a with
  | ⟨0, _⟩ =>
    show win3_6.index t (0 : Fin 2) * 10000 ≤ (i 0).val ∧ (i 0).val < win3_6.index t (0 : Fin 2) * 10000 + 10000
    omega
  | ⟨1, _⟩ =>
    show win3_6.index t (1 : Fin 2) * 64 ≤ (i 1).val ∧ (i 1).val < win3_6.index t (1 : Fin 2) * 64 + 64
    omega

/-- The second normalisation region: batch norm, the residual added, the positive part. -/
theorem bn3 (V : (c : Dev nD) → (b : Ref sig .tc) → Buf (Elt Ideal) ((c : Thread nD τ).loc b)) (c : Dev nD) :
    (dat3 V c).arrAt 6 cfg3.N
      = bnResRelu (V c main_v40) (V c main_arg0) (V c main_v41) (V c main_v42) (V c main_v43) (V c main_v44) :=
  (dat3 V c).arrAt_eq_of_cover 6
    (bnResRelu (V c main_v40) (V c main_arg0) (V c main_v41) (V c main_v42) (V c main_v43) (V c main_v44))
    (fun t _ => flushed3 V c t) cover3

end Cert.SparseConv.BnBlock

end
-- ==== Proof.Fold.lean ====
/-
  The kernel program's result, read back through @main: eight segments, a stretch of host operations and a kernel
  region in turn, four times.

  At each boundary the buffers' contents are a function of the contents at the boundary before. A host stretch leaves
  every buffer it does not write as it was and each result at its operation's value of the operands; a region leaves its
  output array at what its grid points wrote back — the per-offset product, or the normalisation, of the arrays it
  was entered with — and every other buffer as it was. No operation and no region writes an argument of @main, so an
  argument's buffer holds the launch contents at every boundary. Walking back from the last boundary:

      result        = bnResRelu (conv₂) x (γ₂ β₂ μ₂ σ₂ as rows)
      conv₂         = scat (gemm (gath h in_map) w₂) out_map
      h             = bnRelu (conv₁) (γ₁ β₁ μ₁ σ₁ as rows)
      conv₁         = scat (gemm (gath x in_map) w₁) out_map,

  which is the block of the thirteen arguments. The four region facts are taken as hypotheses here, each stated at
  any entry contents, so that this module stands beside the modules that prove them.
-/
import proofs.«155752_j68350109548654_1_alg».proof.Proof.Spec
import proofs.«155752_j68350109548654_1_alg».proof.Proof.Gen.KernelIdeal.Frame
import Idealize.ShloMosaic.Lib.StableHlo.Run

set_option maxRecDepth 16384

noncomputable section

namespace Cert.SparseConv.Fold

open Idealize.ShloMosaic Idealize.ShloMosaic.TcCoe Idealize.SL.Sem Idealize.ShloMosaic.StableHlo
open Cert.KernelIdeal Cert.KernelIdeal.Gen Cert.SparseConv

variable (m : (ℓ : Loc nD τ sig) → Buf (Elt Ideal) ℓ) (ρ : Dev nD → PrngReg)

/-! ## A buffer nothing writes holds its launch contents at every boundary -/

/-- No operation of the stretch writes buffer `b`. -/
abbrev Untouched (b : Ref sig .tc) (ops : List (HloOp τ sig (Elt Ideal))) : Prop :=
  ∀ op ∈ ops, (Proc.devRef .tc b : DevRef τ sig) ∉ op.writes

/-- Decides `Untouched b ops` for a literal stretch: each operation writes one buffer, another than `b`. -/
macro "untouched" : tactic =>
  `(tactic| (refine List.forall_iff_forall_mem.mp ?_
             simp only [hostOps0, hostOps1, hostOps2, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

section Keep
variable (c : Dev nD) (b : Ref sig .tc)

theorem keep1 (h0 : Untouched b hostOps0) : W1 m ρ c (Proc.devRef .tc b) = m ((c : Thread nD τ).loc b) :=
  (StableHlo.after_of_forall_not_mem (b := Proc.devRef .tc b) _ _ h0).trans rfl

theorem keep2 (h0 : Untouched b hostOps0) (s0 : ∀ w, Pipeline.arrRef spec0 w ≠ b) :
    W2 m ρ c (Proc.devRef .tc b) = m ((c : Thread nD τ).loc b) :=
  (W2_of_ne m ρ c b s0).trans (keep1 m ρ c b h0)

theorem keep3 (h0 : Untouched b hostOps0) (s0 : ∀ w, Pipeline.arrRef spec0 w ≠ b) (h1 : Untouched b hostOps1) :
    W3 m ρ c (Proc.devRef .tc b) = m ((c : Thread nD τ).loc b) :=
  (StableHlo.after_of_forall_not_mem (b := Proc.devRef .tc b) _ _ h1).trans (keep2 m ρ c b h0 s0)

theorem keep4 (h0 : Untouched b hostOps0) (s0 : ∀ w, Pipeline.arrRef spec0 w ≠ b) (h1 : Untouched b hostOps1)
    (s1 : ∀ w, Pipeline.arrRef spec1 w ≠ b) : W4 m ρ c (Proc.devRef .tc b) = m ((c : Thread nD τ).loc b) :=
  (W4_of_ne m ρ c b s1).trans (keep3 m ρ c b h0 s0 h1)

theorem keep5 (h0 : Untouched b hostOps0) (s0 : ∀ w, Pipeline.arrRef spec0 w ≠ b) (h1 : Untouched b hostOps1)
    (s1 : ∀ w, Pipeline.arrRef spec1 w ≠ b) (h2 : Untouched b hostOps2) :
    W5 m ρ c (Proc.devRef .tc b) = m ((c : Thread nD τ).loc b) :=
  (StableHlo.after_of_forall_not_mem (b := Proc.devRef .tc b) _ _ h2).trans (keep4 m ρ c b h0 s0 h1 s1)

theorem keep6 (h0 : Untouched b hostOps0) (s0 : ∀ w, Pipeline.arrRef spec0 w ≠ b) (h1 : Untouched b hostOps1)
    (s1 : ∀ w, Pipeline.arrRef spec1 w ≠ b) (h2 : Untouched b hostOps2) (s2 : ∀ w, Pipeline.arrRef spec2 w ≠ b) :
    W6 m ρ c (Proc.devRef .tc b) = m ((c : Thread nD τ).loc b) :=
  (W6_of_ne m ρ c b s2).trans (keep5 m ρ c b h0 s0 h1 s1 h2)

theorem keep7 (h0 : Untouched b hostOps0) (s0 : ∀ w, Pipeline.arrRef spec0 w ≠ b) (h1 : Untouched b hostOps1)
    (s1 : ∀ w, Pipeline.arrRef spec1 w ≠ b) (h2 : Untouched b hostOps2) (s2 : ∀ w, Pipeline.arrRef spec2 w ≠ b)
    (h3 : Untouched b hostOps3) : W7 m ρ c (Proc.devRef .tc b) = m ((c : Thread nD τ).loc b) :=
  (StableHlo.after_of_forall_not_mem (b := Proc.devRef .tc b) _ _ h3).trans (keep6 m ρ c b h0 s0 h1 s1 h2 s2)

end Keep

/-! ## What each host stretch leaves in the buffers the next region reads, and what each region leaves -/

section Walk
variable
  (hg0 : ∀ (V : (c : Dev nD) → (b : Ref sig .tc) → Buf (Elt Ideal) ((c : Thread nD τ).loc b)) (c : Dev nD), (dat0 V c).arrAt 2 cfg0.N = gemm (V c main_v6) (V c main_arg1))
  (hb1 : ∀ (V : (c : Dev nD) → (b : Ref sig .tc) → Buf (Elt Ideal) ((c : Thread nD τ).loc b)) (c : Dev nD), (dat1 V c).arrAt 5 cfg1.N
    = bnRelu (V c main_v17) (V c main_v18) (V c main_v19) (V c main_v20) (V c main_v21))
  (hg2 : ∀ (V : (c : Dev nD) → (b : Ref sig .tc) → Buf (Elt Ideal) ((c : Thread nD τ).loc b)) (c : Dev nD), (dat2 V c).arrAt 2 cfg2.N = gemm (V c main_v29) (V c main_arg2))
  (hb3 : ∀ (V : (c : Dev nD) → (b : Ref sig .tc) → Buf (Elt Ideal) ((c : Thread nD τ).loc b)) (c : Dev nD), (dat3 V c).arrAt 6 cfg3.N
    = bnResRelu (V c main_v40) (V c main_arg0) (V c main_v41) (V c main_v42) (V c main_v43) (V c main_v44))

/-! ### The first convolution -/

/-- Stretch 0: the rows of `x` gathered at `in_map`. -/
theorem rows1 (c : Dev nD) :
    V1 m ρ c main_v6 = gath (m ((c : Thread nD τ).loc main_arg0)) (m ((c : Thread nD τ).loc main_arg11)) := by
  show StableHlo.after hostOps0 (W0 m ρ c) (Proc.devRef .tc main_v6) = _
  after_results
  rfl

/-- Stretch 0 leaves the first layer's weights as launched. -/
theorem wts1 (c : Dev nD) : V1 m ρ c main_arg1 = (m ((c : Thread nD τ).loc main_arg1)) :=
  keep1 m ρ c main_arg1 (by untouched)

include hg0 in
/-- Region 0 leaves the per-offset product of those rows and weights. -/
theorem prod1 (c : Dev nD) :
    W2 m ρ c (Proc.devRef .tc main_v7)
      = gemm (gath (m ((c : Thread nD τ).loc main_arg0)) (m ((c : Thread nD τ).loc main_arg11))) (m ((c : Thread nD τ).loc main_arg1)) :=
  (W2_arr m ρ c 2).trans ((hg0 (V1 m ρ) c).trans (congrArg₂ gemm (rows1 m ρ c) (wts1 m ρ c)))

include hg0 in
/-- Stretch 1: the products scatter-added at `out_map`: the first convolution. -/
theorem conv1 (c : Dev nD) :
    V3 m ρ c main_v17 = conv (m ((c : Thread nD τ).loc main_arg0)) (m ((c : Thread nD τ).loc main_arg1)) (m ((c : Thread nD τ).loc main_arg11)) (m ((c : Thread nD τ).loc main_arg12)) := by
  show StableHlo.after hostOps1 (W2 m ρ c) (Proc.devRef .tc main_v17) = _
  after_results
  rw [keep2 m ρ c main_arg12 (by untouched) (by decide), prod1 m ρ hg0 c]
  rfl

/-- Stretch 1 lays the first layer's scale out as a row. -/
theorem gamma1 (c : Dev nD) : V3 m ρ c main_v18 = asRow (m ((c : Thread nD τ).loc main_arg3)) := by
  show StableHlo.after hostOps1 (W2 m ρ c) (Proc.devRef .tc main_v18) = _
  after_results
  rw [keep2 m ρ c main_arg3 (by untouched) (by decide)]
  rfl

/-- Its shift. -/
theorem beta1 (c : Dev nD) : V3 m ρ c main_v19 = asRow (m ((c : Thread nD τ).loc main_arg4)) := by
  show StableHlo.after hostOps1 (W2 m ρ c) (Proc.devRef .tc main_v19) = _
  after_results
  rw [keep2 m ρ c main_arg4 (by untouched) (by decide)]
  rfl

/-- Its mean. -/
theorem mean1 (c : Dev nD) : V3 m ρ c main_v20 = asRow (m ((c : Thread nD τ).loc main_arg5)) := by
  show StableHlo.after hostOps1 (W2 m ρ c) (Proc.devRef .tc main_v20) = _
  after_results
  rw [keep2 m ρ c main_arg5 (by untouched) (by decide)]
  rfl

/-- Its variance. -/
theorem var1 (c : Dev nD) : V3 m ρ c main_v21 = asRow (m ((c : Thread nD τ).loc main_arg6)) := by
  show StableHlo.after hostOps1 (W2 m ρ c) (Proc.devRef .tc main_v21) = _
  after_results
  rw [keep2 m ρ c main_arg6 (by untouched) (by decide)]
  rfl

include hg0 hb1 in
/-- Region 1 leaves the first convolution normalised, its positive part taken: the hidden features. -/
theorem hidden (c : Dev nD) :
    W4 m ρ c (Proc.devRef .tc main_v22)
      = bnRelu (conv (m ((c : Thread nD τ).loc main_arg0)) (m ((c : Thread nD τ).loc main_arg1)) (m ((c : Thread nD τ).loc main_arg11)) (m ((c : Thread nD τ).loc main_arg12)))
          (asRow (m ((c : Thread nD τ).loc main_arg3))) (asRow (m ((c : Thread nD τ).loc main_arg4))) (asRow (m ((c : Thread nD τ).loc main_arg5))) (asRow (m ((c : Thread nD τ).loc main_arg6))) :=
  (W4_arr m ρ c 5).trans ((hb1 (V3 m ρ) c).trans (by
    rw [conv1 m ρ hg0 c, gamma1 m ρ c, beta1 m ρ c, mean1 m ρ c, var1 m ρ c]))

/-! ### The second convolution -/

/-- Stretch 2: the rows of the hidden features gathered at `in_map`. -/
theorem rows2 (c : Dev nD) :
    V5 m ρ c main_v29 = gath (W4 m ρ c (Proc.devRef .tc main_v22)) (m ((c : Thread nD τ).loc main_arg11)) := by
  show StableHlo.after hostOps2 (W4 m ρ c) (Proc.devRef .tc main_v29) = _
  after_results
  rw [keep4 m ρ c main_arg11 (by untouched) (by decide) (by untouched) (by decide)]
  rfl

/-- Stretch 2 leaves the second layer's weights as launched. -/
theorem wts2 (c : Dev nD) : V5 m ρ c main_arg2 = (m ((c : Thread nD τ).loc main_arg2)) :=
  keep5 m ρ c main_arg2 (by untouched) (by decide) (by untouched) (by decide) (by untouched)

include hg2 in
/-- Region 2 leaves the per-offset product of those rows and weights. -/
theorem prod2 (c : Dev nD) :
    W6 m ρ c (Proc.devRef .tc main_v30)
      = gemm (gath (W4 m ρ c (Proc.devRef .tc main_v22)) (m ((c : Thread nD τ).loc main_arg11))) (m ((c : Thread nD τ).loc main_arg2)) :=
  (W6_arr m ρ c 2).trans ((hg2 (V5 m ρ) c).trans (congrArg₂ gemm (rows2 m ρ c) (wts2 m ρ c)))

include hg2 in
/-- Stretch 3: the products scatter-added at `out_map`: the second convolution, of the hidden features. -/
theorem conv2 (c : Dev nD) :
    V7 m ρ c main_v40
      = conv (W4 m ρ c (Proc.devRef .tc main_v22)) (m ((c : Thread nD τ).loc main_arg2)) (m ((c : Thread nD τ).loc main_arg11)) (m ((c : Thread nD τ).loc main_arg12)) := by
  show StableHlo.after hostOps3 (W6 m ρ c) (Proc.devRef .tc main_v40) = _
  after_results
  rw [keep6 m ρ c main_arg12 (by untouched) (by decide) (by untouched) (by decide) (by untouched) (by decide), prod2 m ρ hg2 c]
  rfl

/-- Stretch 3 lays the second layer's scale out as a row. -/
theorem gamma2 (c : Dev nD) : V7 m ρ c main_v41 = asRow (m ((c : Thread nD τ).loc main_arg7)) := by
  show StableHlo.after hostOps3 (W6 m ρ c) (Proc.devRef .tc main_v41) = _
  after_results
  rw [keep6 m ρ c main_arg7 (by untouched) (by decide) (by untouched) (by decide) (by untouched) (by decide)]
  rfl

/-- Its shift. -/
theorem beta2 (c : Dev nD) : V7 m ρ c main_v42 = asRow (m ((c : Thread nD τ).loc main_arg8)) := by
  show StableHlo.after hostOps3 (W6 m ρ c) (Proc.devRef .tc main_v42) = _
  after_results
  rw [keep6 m ρ c main_arg8 (by untouched) (by decide) (by untouched) (by decide) (by untouched) (by decide)]
  rfl

/-- Its mean. -/
theorem mean2 (c : Dev nD) : V7 m ρ c main_v43 = asRow (m ((c : Thread nD τ).loc main_arg9)) := by
  show StableHlo.after hostOps3 (W6 m ρ c) (Proc.devRef .tc main_v43) = _
  after_results
  rw [keep6 m ρ c main_arg9 (by untouched) (by decide) (by untouched) (by decide) (by untouched) (by decide)]
  rfl

/-- Its variance. -/
theorem var2 (c : Dev nD) : V7 m ρ c main_v44 = asRow (m ((c : Thread nD τ).loc main_arg10)) := by
  show StableHlo.after hostOps3 (W6 m ρ c) (Proc.devRef .tc main_v44) = _
  after_results
  rw [keep6 m ρ c main_arg10 (by untouched) (by decide) (by untouched) (by decide) (by untouched) (by decide)]
  rfl

/-- The residual the last region adds is `x` as launched. -/
theorem residual (c : Dev nD) : V7 m ρ c main_arg0 = (m ((c : Thread nD τ).loc main_arg0)) :=
  keep7 m ρ c main_arg0 (by untouched) (by decide) (by untouched) (by decide) (by untouched) (by decide) (by untouched)

/-! ### The result -/

include hg0 hb1 hg2 hb3 in
/-- THE RESULT ARRAY at the last boundary is the block of the thirteen arguments. -/
theorem result (c : Dev nD) :
    W8 m ρ c (Proc.devRef .tc main_v45)
      = block (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) :=
  (W8_arr m ρ c 6).trans ((hb3 (V7 m ρ) c).trans (by
    rw [conv2 m ρ hg2 c, residual m ρ c, gamma2 m ρ c, beta2 m ρ c, mean2 m ρ c, var2 m ρ c, hidden m ρ hg0 hb1 c]
    rfl))

end Walk

end Cert.SparseConv.Fold

end
-- ==== Proof.RefValue.lean ====
import proofs.«155752_j68350109548654_1_alg».proof.Proof.Spec
import proofs.«155752_j68350109548654_1_alg».proof.Proof.Gen.ReferenceIdeal.Read
import proofs.«155752_j68350109548654_1_alg».proof.Proof.LibDenseLayer
import Idealize.ShloMosaic.Lib.ValueLayout
set_option maxRecDepth 16384

noncomputable section

namespace Cert.SparseConv.RefValue

open Idealize.ShloMosaic Idealize.ShloMosaic.TcCoe Idealize.ShloMosaic.ValueIdx Idealize.SL.Sem
open Cert.SparseConv

/-!
  The reference is one host program: gather, product per offset, scatter-add, normalisation, twice. Its result term is
  read stage by stage. The gather and the scatter-add are the specification's own host operations with the same
  dimension numbers, so they agree as written. The product is read at an index as the sum over the contracted channel.
  A parameter vector broadcast to one row and then down the sites reads, at (site, channel), the vector at the channel,
  which is what the specification reads from the vector laid out as one row.
-/

section Stages
open Cert.ReferenceIdeal Cert.ReferenceIdeal.Gen

/-- The reference's row gather, with its wrapped start indices, is the specification's gather. -/
theorem gather_eq (x : Feat) (im : Sites) :
    Host.gather gather_S200000x64_S27x100000x1_S27x100000x64_2_0_n_n_0_2_164 x
        (broadcastInDim S27x100000x1 ![0, 1] bcast_S27x100000_S27x100000x1_0_1
          (select (cmpi .slt im (broadcastInDim S27x100000 ![] bcast_S_S27x100000 (constantI S_ 32 0#32)))
            (addi im (broadcastInDim S27x100000 ![] bcast_S_S27x100000 (constantI S_ 32 200000#32))) im))
      = gath x im := rfl

/-- The reference's scatter-add into zeros, with its wrapped flat indices, is the specification's scatter-add. -/
theorem scatter_eq (y : Rows) (om : Sites) :
    Host.scatterAdd (F := Ideal) scatter_S200000x64_S2700000x1_S2700000x64_1_0_0_1
        (broadcastInDim S200000x64 ![] bcast_S_S200000x64 (constant (F := Ideal) S_ .f32 0x00000000#32))
        (broadcastInDim S2700000x1 ![0] bcast_S2700000_S2700000x1_0
          (select (cmpi .slt (shapeCast _ om shapeCasts_S27x100000_S2700000) (broadcastInDim S2700000 ![] bcast_S_S2700000 (constantI S_ 32 0#32)))
            (addi (shapeCast _ om shapeCasts_S27x100000_S2700000) (broadcastInDim S2700000 ![] bcast_S_S2700000 (constantI S_ 32 200000#32)))
            (shapeCast _ om shapeCasts_S27x100000_S2700000)))
        (shapeCast _ y shapeCasts_S27x100000x64_S2700000x64)
      = scat y om := rfl

end Stages

section Product
open Cert.ReferenceIdeal Cert.ReferenceIdeal.Gen Cert.ReferenceIdeal.Read

/-- The reference's batched product, contracting the rows' channel with the weights' row per offset, is the
    specification's sum at every index. -/
theorem dot_eq (g : Rows) (w : Wts) :
    Host.dotGeneral (F := Ideal) (φ₁ := .f32) (φ₂ := .f32) dot_S27x100000x64_S27x64x64_S27x100000x64_2_1_1_2_0_0 none g w = gemm g w := by
  funext i
  unfold gemm
  simp only [Host.dotGeneral]
  rw [Ideal.dotGeneral_apply,
    ← Equiv.sum_comp (ValueIdx.contrEquiv1 dot_S27x100000x64_S27x64x64_S27x100000x64_2_1_1_2_0_0 64 rfl rfl).symm]
  refine Finset.sum_congr rfl fun l _ => ?_
  have hl := ValueIdx.contrEquiv1_symm_val dot_S27x100000x64_S27x64x64_S27x100000x64_2_1_1_2_0_0 64 rfl rfl l
  have el : dot_S27x100000x64_S27x64x64_S27x100000x64_2_1_1_2_0_0.lhsIdx i
      ((ValueIdx.contrEquiv1 dot_S27x100000x64_S27x64x64_S27x100000x64_2_1_1_2_0_0 64 rfl rfl).symm l) = rowsAt i l :=
    funext fun a => Fin.ext (by
      match a with
      | ⟨0, _⟩ => exact lhs_main_v7_0 _ _
      | ⟨1, _⟩ => exact lhs_main_v7_1 _ _
      | ⟨2, _⟩ => exact (lhs_main_v7_2 _ _).trans hl)
  have er : dot_S27x100000x64_S27x64x64_S27x100000x64_2_1_1_2_0_0.rhsIdx i
      ((ValueIdx.contrEquiv1 dot_S27x100000x64_S27x64x64_S27x100000x64_2_1_1_2_0_0 64 rfl rfl).symm l) = wtsAt i l :=
    funext fun a => Fin.ext (by
      match a with
      | ⟨0, _⟩ => exact rhs_main_v7_0 _ _
      | ⟨1, _⟩ => exact (rhs_main_v7_1 _ _).trans hl
      | ⟨2, _⟩ => exact rhs_main_v7_2 _ _)
  rw [el, er]

end Product

section Norm
open Cert.ReferenceIdeal Cert.ReferenceIdeal.Gen
open Idealize.ShloMosaic.DenseLayer

/-- A parameter vector laid out as one row reads, at a site's channel entry, the vector at that channel. -/
theorem asRow_chan (v : Par) (p : Fin 200000) (q : Fin 64) : asRow v (chan (ix2 p q)) = v (ix1 q) := by
  have hc : chan (ix2 p q) = ix2 (0 : Fin 1) q := by
    funext a
    match a with
    | ⟨0, _⟩ => rfl
    | ⟨1, _⟩ => rfl
  rw [hc]
  unfold asRow
  exact shapeCast_a_1a_apply v _ 0 q

/-- A parameter vector laid along the channel axis of one row, that row repeated down the sites, reads at site `p`,
    channel `q` the vector at `q`. -/
theorem bcast_par_apply (v : Par) (p : Fin 200000) (q : Fin 64) :
    broadcastInDim S200000x64 ![0, 1] bcast_S1x64_S200000x64_0_1 (broadcastInDim S1x64 ![1] bcast_S64_S1x64_1 v) (ix2 p q)
      = v (ix1 q) :=
  bias_inDim_apply _ _ v p q

/-- The reference's first normalisation and positive part, over broadcast parameter vectors, is the specification's. -/
theorem bnRelu_eq (s : Feat) (γ β μ σ : Par) :
    maximumf (addf (mulf (mulf (subf s
        (broadcastInDim S200000x64 ![0, 1] bcast_S1x64_S200000x64_0_1 (broadcastInDim S1x64 ![1] bcast_S64_S1x64_1 μ)))
        (broadcastInDim S200000x64 ![0, 1] bcast_S1x64_S200000x64_0_1 (broadcastInDim S1x64 ![1] bcast_S64_S1x64_1
          (Host.rsqrt (addf σ (broadcastInDim S64 ![] bcast_S_S64 (constant (F := Ideal) S_ .f32 0x3727C5AC#32)))))))
        (broadcastInDim S200000x64 ![0, 1] bcast_S1x64_S200000x64_0_1 (broadcastInDim S1x64 ![1] bcast_S64_S1x64_1 γ)))
        (broadcastInDim S200000x64 ![0, 1] bcast_S1x64_S200000x64_0_1 (broadcastInDim S1x64 ![1] bcast_S64_S1x64_1 β)))
        (broadcastInDim S200000x64 ![] bcast_S_S200000x64 (constant (F := Ideal) S_ .f32 0x00000000#32))
      = bnRelu s (asRow γ) (asRow β) (asRow μ) (asRow σ) := by
  funext i
  obtain ⟨p, q, rfl⟩ : ∃ p q, i = ix2 p q := ⟨i 0, i 1, eq_ix2 i⟩
  unfold bnRelu norm
  rw [asRow_chan, asRow_chan, asRow_chan, asRow_chan, maximumf_apply, addf_apply, mulf_apply, mulf_apply, subf_apply,
    bcast_par_apply, bcast_par_apply, bcast_par_apply, bcast_par_apply]
  rfl

/-- The reference's second normalisation, the residual added, and the positive part is the specification's. -/
theorem bnResRelu_eq (s x : Feat) (γ β μ σ : Par) :
    maximumf (addf (addf (mulf (mulf (subf s
        (broadcastInDim S200000x64 ![0, 1] bcast_S1x64_S200000x64_0_1 (broadcastInDim S1x64 ![1] bcast_S64_S1x64_1 μ)))
        (broadcastInDim S200000x64 ![0, 1] bcast_S1x64_S200000x64_0_1 (broadcastInDim S1x64 ![1] bcast_S64_S1x64_1
          (Host.rsqrt (addf σ (broadcastInDim S64 ![] bcast_S_S64 (constant (F := Ideal) S_ .f32 0x3727C5AC#32)))))))
        (broadcastInDim S200000x64 ![0, 1] bcast_S1x64_S200000x64_0_1 (broadcastInDim S1x64 ![1] bcast_S64_S1x64_1 γ)))
        (broadcastInDim S200000x64 ![0, 1] bcast_S1x64_S200000x64_0_1 (broadcastInDim S1x64 ![1] bcast_S64_S1x64_1 β))) x)
        (broadcastInDim S200000x64 ![] bcast_S_S200000x64 (constant (F := Ideal) S_ .f32 0x00000000#32))
      = bnResRelu s x (asRow γ) (asRow β) (asRow μ) (asRow σ) := by
  funext i
  obtain ⟨p, q, rfl⟩ : ∃ p q, i = ix2 p q := ⟨i 0, i 1, eq_ix2 i⟩
  unfold bnResRelu norm
  rw [asRow_chan, asRow_chan, asRow_chan, asRow_chan, maximumf_apply, addf_apply, addf_apply, mulf_apply, mulf_apply,
    subf_apply, bcast_par_apply, bcast_par_apply, bcast_par_apply, bcast_par_apply]
  rfl

end Norm

/-- The reference's result term is the block of its thirteen arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v68 (F := Ideal) m c
      = block (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12)) := by
  unfold Cert.ReferenceIdeal.Value.res_main_v68
  rw [gather_eq, gather_eq, dot_eq, dot_eq, scatter_eq, scatter_eq, bnRelu_eq, bnResRelu_eq]
  rfl

end Cert.SparseConv.RefValue

end
-- ==== Proof.lean ====
/-
  A residual block of a sparse convolution network, tiled for the TPU, against its plain reference.

  Both programs compute, from features x [200000, 64], two weight stacks [27, 64, 64], two sets of batch-norm
  parameters [64] and two site tables [27, 100000],

      max( norm₂( conv( max( norm₁( conv(x, w₁) ), 0 ), w₂ ) ) + x, 0 ),

  where conv gathers the feature rows the site table `in_map` names, multiplies each by its offset's weight matrix, and
  scatter-adds the products at the rows `out_map` names, and norm is (s − mean)·(var + ε)^(−1/2)·gamma + beta.
  The tiled program keeps the gather and the scatter-add as whole-array host operations and runs the product and
  the two normalisations as kernels, block by block (27 × 10 blocks of 10000 rows; 20 blocks of 10000 rows); the
  reference runs one batched product and elementwise host operations.

  At the ideal values the two agree operation by operation, with no use of finiteness: a block of the product is the
  same sum over the 64 channels as the batched product's entry (rounding the operands to bf16 is the identity
  there), a block of a normalisation is the same expression of the same entries as the reference's broadcast chain, and
  the blocks tile their arrays. So both results are ONE function of the arguments, `Cert.SparseConv.block`:
    * the tiled program's result array, read back through its eight segments (Proof/Fold.lean, over the four region
      facts of Proof/GemmBlock.lean and Proof/BnBlock.lean and the run of Proof/RunValue.lean);
    * the reference's result term (Proof/RefValue.lean over the reference's run).
  The three frames are the generated frame certificates and the reference's run with its result dropped; the
  idealization rewrote nothing, so `preserves` is trivial.
-/
import proofs.«155752_j68350109548654_1_alg».proof.Defs
import proofs.«155752_j68350109548654_1_alg».proof.Proof.Gen.Kernel
import proofs.«155752_j68350109548654_1_alg».proof.Proof.Gen.Kernel.Skeleton
import proofs.«155752_j68350109548654_1_alg».proof.Proof.Gen.Kernel.Launch
import proofs.«155752_j68350109548654_1_alg».proof.Proof.Gen.Kernel.Points
import proofs.«155752_j68350109548654_1_alg».proof.Proof.Gen.Kernel.Frame
import proofs.«155752_j68350109548654_1_alg».proof.Proof.Gen.KernelIdeal
import proofs.«155752_j68350109548654_1_alg».proof.Proof.Gen.KernelIdeal.Skeleton
import proofs.«155752_j68350109548654_1_alg».proof.Proof.Gen.KernelIdeal.Launch
import proofs.«155752_j68350109548654_1_alg».proof.Proof.Gen.KernelIdeal.Points
import proofs.«155752_j68350109548654_1_alg».proof.Proof.Gen.KernelIdeal.Frame
import proofs.«155752_j68350109548654_1_alg».proof.Proof.Gen.ReferenceIdeal
import proofs.«155752_j68350109548654_1_alg».proof.Proof.Gen.Pre_finite_inputs
import proofs.«155752_j68350109548654_1_alg».proof.Proof.Gen.ReferenceIdeal.Run
import proofs.«155752_j68350109548654_1_alg».proof.Proof.Gen.ReferenceIdeal.Read
import proofs.«155752_j68350109548654_1_alg».proof.Proof.Spec
import proofs.«155752_j68350109548654_1_alg».proof.Proof.RunValue
import proofs.«155752_j68350109548654_1_alg».proof.Proof.GemmBlock
import proofs.«155752_j68350109548654_1_alg».proof.Proof.BnBlock
import proofs.«155752_j68350109548654_1_alg».proof.Proof.Fold
import proofs.«155752_j68350109548654_1_alg».proof.Proof.RefValue
import Idealize.ShloMosaic.Adequacy
import Idealize.ShloMosaic.Init

noncomputable section

namespace Cert.Proof

open Idealize.ShloMosaic Idealize.ShloMosaic.TcCoe Idealize.SL.Sem Cert.SparseConv

/-- The tiled program terminates with its arguments unchanged: the generated frame certificate, at the word level. -/
theorem frame_k : Cert.frame_Kernel := fun m ρ _ => Cert.Kernel.Gen.frame m ρ

/-- The same at the ideal values. -/
theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the block of the arguments in their result
    arrays: the tiled program's array read back through its segments, the reference's term read stage by stage. -/
theorem algebraic : Cert.algebraic_KernelIdeal_ReferenceIdeal := by
  intro m ρ m' ρ' _ hagree
  refine ⟨fun c => block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Fold.result m ρ GemmBlock.gemm0 BnBlock.bn1 GemmBlock.gemm2 BnBlock.bn3 c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12⟩ := hagree c
    rw [RefValue.result_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
